-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x8000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S512x64 : Shape := ⟨2, ![512, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S512x64 : S_.BroadcastsInDim S512x64 (![] : Fin 0 → Fin S512x64.rank)
  reducesTo_S512x64_S_d0_1 : S512x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S1600000x128 .f32) (main_arg3 : FVec F S512x64 .f32) (main_arg4 : IVec S50000 32) (main_arg5 : FVec F S192x64 .f32) (main_arg6 : FVec F S64 .f32) (main_arg7 : FVec F S64x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg6 main_arg7 main_arg8 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S512x64 : Shape := ⟨2, ![512, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S2x100x1x8000 : Shape := ⟨4, ![2, 100, 1, 8000]⟩
abbrev S2x800000x128 : Shape := ⟨3, ![2, 800000, 128]⟩
abbrev S2x512x128 : Shape := ⟨3, ![2, 512, 128]⟩
abbrev S2x512x1 : Shape := ⟨3, ![2, 512, 1]⟩
abbrev S1x1x1x8000 : Shape := ⟨4, ![1, 1, 1, 8000]⟩
abbrev S1x8000x128 : Shape := ⟨3, ![1, 8000, 128]⟩
abbrev S1x512x128 : Shape := ⟨3, ![1, 512, 128]⟩
abbrev S1x512x1 : Shape := ⟨3, ![1, 512, 1]⟩
abbrev S512x128 : Shape := ⟨2, ![512, 128]⟩
abbrev S512x1 : Shape := ⟨2, ![512, 1]⟩
abbrev S1x8000 : Shape := ⟨2, ![1, 8000]⟩
abbrev S512x8000 : Shape := ⟨2, ![512, 8000]⟩
abbrev S8000x128 : Shape := ⟨2, ![8000, 128]⟩
abbrev S512 : Shape := ⟨1, ![512]⟩
abbrev S512x192 : Shape := ⟨2, ![512, 192]⟩
abbrev S1x64 : Shape := ⟨2, ![1, 64]⟩

abbrev nBuf : Space → Nat
  | .hbm => 51
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S512x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .i32⟩
  | .hbm, ⟨20, _⟩ => ⟨S2x100x1x8000, .i32⟩
  | .hbm, ⟨21, _⟩ => ⟨S2x800000x128, .f32⟩
  | .hbm, ⟨22, _⟩ => ⟨S2x512x128, .f32⟩
  | .hbm, ⟨23, _⟩ => ⟨S2x512x1, .f32⟩
  | .hbm, ⟨24, _⟩ => ⟨S1x512x128, .f32⟩
  | .hbm, ⟨25, _⟩ => ⟨S512x128, .f32⟩
  | .hbm, ⟨26, _⟩ => ⟨S1x512x128, .f32⟩
  | .hbm, ⟨27, _⟩ => ⟨S512x128, .f32⟩
  | .hbm, ⟨28, _⟩ => ⟨S512x128, .f32⟩
  | .hbm, ⟨29, _⟩ => ⟨S1x512x1, .f32⟩
  | .hbm, ⟨30, _⟩ => ⟨S512x1, .f32⟩
  | .hbm, ⟨31, _⟩ => ⟨S1x512x1, .f32⟩
  | .hbm, ⟨32, _⟩ => ⟨S512x1, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x128, .f32⟩
  | .hbm, ⟨38, _⟩ => ⟨S512x128, .f32⟩
  | .hbm, ⟨39, _⟩ => ⟨S512x192, .f32⟩
  | .hbm, ⟨40, _⟩ => ⟨S512x64, .f32⟩
  | .hbm, ⟨41, _⟩ => ⟨S1x64, .f32⟩
  | .hbm, ⟨42, _⟩ => ⟨S512x64, .f32⟩
  | .hbm, ⟨43, _⟩ => ⟨S512x64, .f32⟩
  | .hbm, ⟨44, _⟩ => ⟨S_, .f32⟩
  | .hbm, ⟨45, _⟩ => ⟨S512x64, .f32⟩
  | .hbm, ⟨46, _⟩ => ⟨S512x64, .f32⟩
  | .hbm, ⟨47, _⟩ => ⟨S512x64, .f32⟩
  | .hbm, ⟨48, _⟩ => ⟨S1x64, .f32⟩
  | .hbm, ⟨49, _⟩ => ⟨S512x64, .f32⟩
  | .hbm, ⟨50, _⟩ => ⟨S512x64, .f32⟩
  | .local _ .vmem, ⟨0, _⟩ => ⟨S1x1x1x8000, .i32⟩
  | .local _ .vmem, ⟨1, _⟩ => ⟨S1x1x1x8000, .i32⟩
  | .local _ .vmem, ⟨2, _⟩ => ⟨S1x8000x128, .f32⟩
  | .local _ .vmem, ⟨3, _⟩ => ⟨S1x8000x128, .f32⟩
  | .local _ .vmem, ⟨4, _⟩ => ⟨S1x512x128, .f32⟩
  | .local _ .vmem, ⟨5, _⟩ => ⟨S1x512x128, .f32⟩
  | .local _ .vmem, ⟨6, _⟩ => ⟨S1x512x1, .f32⟩
  | .local _ .vmem, ⟨7, _⟩ => ⟨S1x512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 100], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x8000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S2x100x1x8000 : S1600000.ShapeCasts S2x100x1x8000
  shapeCasts_S1600000x128_S2x800000x128 : S1600000x128.ShapeCasts S2x800000x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x1x1x8000_S1x1x1x8000_0_0_0_0 : ∀ a, (![0, 0, 0, 0] : Fin 4 → Nat) a + S1x1x1x8000.size a ≤ S1x1x1x8000.size a
  h_S1x1x1x8000 : 0 < S1x1x1x8000.numel
  shapeCasts_S1x1x1x8000_S1x8000 : S1x1x1x8000.ShapeCasts S1x8000
  iota_S512x1_d0_w32 : S512x1.Iotas .tc 32 [0]
  broadcasts_S1x8000_S512x8000 : S1x8000.Broadcasts S512x8000
  broadcasts_S512x1_S512x8000 : S512x1.Broadcasts S512x8000
  natLt_1_32 : 1 < 32
  bitsLt_bf16_f32 : FTy.bits .bf16 < FTy.bits .f32
  inb_S1x8000x128_S1x8000x128_0_0_0 : ∀ a, (![0, 0, 0] : Fin 3 → Nat) a + S1x8000x128.size a ≤ S1x8000x128.size a
  h_S1x8000x128 : 0 < S1x8000x128.numel
  shapeCasts_S1x8000x128_S8000x128 : S1x8000x128.ShapeCasts S8000x128
  reduces_S512x8000_S512 : S512x8000.Reduces [1] S512
  shapeCasts_S512_S512x1 : S512.ShapeCasts S512x1
  slices_S2x512x128_S1x512x128_0_0_0 : S2x512x128.Slices ![0, 0, 0] S1x512x128
  slices_S2x512x128_S1x512x128_1_0_0 : S2x512x128.Slices ![1, 0, 0] S1x512x128
  slices_S2x512x1_S1x512x1_0_0_0 : S2x512x1.Slices ![0, 0, 0] S1x512x1
  slices_S2x512x1_S1x512x1_1_0_0 : S2x512x1.Slices ![1, 0, 0] S1x512x1
  bcast_S_S512x1 : S_.BroadcastsInDim S512x1 (![] : Fin 0 → Fin S512x1.rank)
  bcast_S512x1_S512x128_0_1 : S512x1.BroadcastsInDim S512x128 (![0, 1] : Fin 2 → Fin S512x128.rank)
  concatenates_S512x64_S512x128_S512x192_d1 : Shape.Concatenates [S512x64, S512x128] S512x192 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  gather_S50000_S1600000x1_S1600000_n_0_n_n_0_1_1_wf : GatherDims.WF S50000 S1600000x1 S1600000 [] [0] [] [0] [] 1 ![1]
  dot_S512x8000_S8000x128_S512x128_1_0_0_1_n_n_wf : DotDims.WF S512x8000 S8000x128 S512x128 [1] [0] [0] [1] [] []
  dot_S512x192_S192x64_S512x64_1_0_0_1_n_n_wf : DotDims.WF S512x192 S192x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x8000.size a ≤ S2x100x1x8000.size a
  hwx0_0 : ∀ i : grid0.Coords, EltTy.bits .i32 = 32 ∨ (Rect.block (s := S2x100x1x8000) S1x1x1x8000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8000x128.size a ≤ S2x800000x128.size a
  hwx0_1 : ∀ i : grid0.Coords, EltTy.bits .f32 = 32 ∨ (Rect.block (s := S2x800000x128) S1x8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S512x8000_S8000x128_S512x128_1_0_0_1_n_n : DotDims S512x8000 S8000x128 S512x128 where
  lhsContracting := [1]
  rhsContracting := [0]
  lhsNonContracting := [0]
  rhsNonContracting := [1]
  lhsBatch := []
  rhsBatch := []
  wf := dot_S512x8000_S8000x128_S512x128_1_0_0_1_n_n_wf
def dot_S512x192_S192x64_S512x64_1_0_0_1_n_n : DotDims S512x192 S192x64 S512x64 where
  lhsContracting := [1]
  rhsContracting := [0]
  lhsNonContracting := [0]
  rhsNonContracting := [1]
  lhsBatch := []
  rhsBatch := []
  wf := dot_S512x192_S192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v9) S1x1x1x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S1x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S512x64 : Shape := ⟨2, ![512, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S512x128 : Shape := ⟨2, ![512, 128]⟩
abbrev S512 : Shape := ⟨1, ![512]⟩
abbrev S512x1 : Shape := ⟨2, ![512, 1]⟩
abbrev S512x192 : Shape := ⟨2, ![512, 192]⟩
abbrev S1x64 : Shape := ⟨2, ![1, 64]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S512x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .i32⟩
  | .hbm, ⟨20, _⟩ => ⟨S_, .f32⟩
  | .hbm, ⟨21, _⟩ => ⟨S512x128, .f32⟩
  | .hbm, ⟨22, _⟩ => ⟨S1600000x1, .i32⟩
  | .hbm, ⟨23, _⟩ => ⟨S512x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S512, .f32⟩
  | .hbm, ⟨28, _⟩ => ⟨S1600000x1, .i32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512x1, .f32⟩
  | .hbm, ⟨34, _⟩ => ⟨S512x128, .f32⟩
  | .hbm, ⟨35, _⟩ => ⟨S512x128, .f32⟩
  | .hbm, ⟨36, _⟩ => ⟨S512x192, .f32⟩
  | .hbm, ⟨37, _⟩ => ⟨S512x64, .f32⟩
  | .hbm, ⟨38, _⟩ => ⟨S1x64, .f32⟩
  | .hbm, ⟨39, _⟩ => ⟨S512x64, .f32⟩
  | .hbm, ⟨40, _⟩ => ⟨S512x64, .f32⟩
  | .hbm, ⟨41, _⟩ => ⟨S_, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S1x64, .f32⟩
  | .hbm, ⟨46, _⟩ => ⟨S512x64, .f32⟩
  | .hbm, ⟨47, _⟩ => ⟨S512x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x64_S512x128_S512x192_d1 : Shape.Concatenates [S512x64, S512x128] S512x192 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  gather_S50000_S1600000x1_S1600000_n_0_n_n_0_1_1_wf : GatherDims.WF S50000 S1600000x1 S1600000 [] [0] [] [0] [] 1 ![1]
  scatter_S512x128_S1600000x1_S1600000x128_1_0_0_1_wf : ScatterDims.WF S512x128 S1600000x1 S1600000x128 [1] [0] [0] 1
  scatter_S512_S1600000x1_S1600000_n_0_0_1_wf : ScatterDims.WF S512 S1600000x1 S1600000 [] [0] [0] 1
  dot_S512x192_S192x64_S512x64_1_0_0_1_n_n_wf : DotDims.WF S512x192 S192x64 S512x64 [1] [0] [0] [1] [] []
  dot_S512x64_S64x64_S512x64_1_0_0_1_n_n_wf : DotDims.WF S512x64 S64x64 S512x64 [1] [0] [0] [1] [] []

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S512x128_S1600000x1_S1600000x128_1_0_0_1 : ScatterDims S512x128 S1600000x1 S1600000x128 where
  updateWindowDims := [1]
  insertedWindowDims := [0]
  scatterDimsToOperandDims := [0]
  indexVectorDim := 1
  wf := scatter_S512x128_S1600000x1_S1600000x128_1_0_0_1_wf
def scatter_S512_S1600000x1_S1600000_n_0_0_1 : ScatterDims S512 S1600000x1 S1600000 where
  updateWindowDims := []
  insertedWindowDims := [0]
  scatterDimsToOperandDims := [0]
  indexVectorDim := 1
  wf := scatter_S512_S1600000x1_S1600000_n_0_0_1_wf
def dot_S512x192_S192x64_S512x64_1_0_0_1_n_n : DotDims S512x192 S192x64 S512x64 where
  lhsContracting := [1]
  rhsContracting := [0]
  lhsNonContracting := [0]
  rhsNonContracting := [1]
  lhsBatch := []
  rhsBatch := []
  wf := dot_S512x192_S192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.KPieces.lean ====
/-
  What one grid point leaves in the two accumulator blocks, as values.

  At the first tile of a core (the tile coordinate is 0) the body stores a zero block into each accumulator, reads it
  back, and stores "what was read + this tile's contribution"; at every other tile it reads what the tile before left
  and stores "that + this tile's contribution". So the per-core sum block after a point is the sum payload of the
  tile's segment ids, the tile's edge rows and the block it started from, and the per-core count block is the count
  payload of the segment ids and the block it started from; the starting blocks are the zero payloads at a first tile.
-/
import proofs.«404079_j18159121728221_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile: the sum block becomes the sum payload over the block the tile before left. -/
theorem out_B2 (c : Dev nD) (i : grid0.Coords) (a2 : Memref sig .tc .vmem S1x1x1x8000 .i32) (h2 : a2.IsWhole)
    (a3 : Memref sig .tc .vmem S1x8000x128 .f32) (h3 : a3.IsWhole) (a4 : Memref sig .tc .vmem S1x512x128 .f32) (h4 : a4.IsWhole)
    (a5 : Memref sig .tc .vmem S1x512x1 .f32) (h5 : a5.IsWhole) (hc : ¬cond0_0 i)
    (x0 : Vec F S1x1x1x8000 .i32) (x1 : Vec F S1x8000x128 .f32) (xo2 : Vec F S1x512x128 .f32) (xo3 : Vec F S1x512x1 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x1x8000) hz4, View.ld_unit_zero (S := S1x8000x128) hz3,
    View.ld_unit_zero (S := S1x512x128) hz3, View.ld_unit_zero (S := S1x512x1) hz3]

/-- A later tile: the count block becomes the count payload over the block the tile before left. -/
theorem out_B3 (c : Dev nD) (i : grid0.Coords) (a2 : Memref sig .tc .vmem S1x1x1x8000 .i32) (h2 : a2.IsWhole)
    (a3 : Memref sig .tc .vmem S1x8000x128 .f32) (h3 : a3.IsWhole) (a4 : Memref sig .tc .vmem S1x512x128 .f32) (h4 : a4.IsWhole)
    (a5 : Memref sig .tc .vmem S1x512x1 .f32) (h5 : a5.IsWhole) (hc : ¬cond0_0 i)
    (x0 : Vec F S1x1x1x8000 .i32) (x1 : Vec F S1x8000x128 .f32) (xo2 : Vec F S1x512x128 .f32) (xo3 : Vec F S1x512x1 .f32) :
    out0_B_3 c i a2 h2 a3 h3 a4 h4 a5 h5 hc x0 x1 xo2 xo3 = k0_pay5 x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x1x1x8000) hz4, View.ld_unit_zero (S := S1x8000x128) hz3,
    View.ld_unit_zero (S := S1x512x128) hz3, View.ld_unit_zero (S := S1x512x1) hz3]

/-- A first tile: the sum block becomes the sum payload over the zero block just stored and read back. -/
theorem out_A2 (c : Dev nD) (i : grid0.Coords) (a2 : Memref sig .tc .vmem S1x1x1x8000 .i32) (h2 : a2.IsWhole)
    (a3 : Memref sig .tc .vmem S1x8000x128 .f32) (h3 : a3.IsWhole) (a4 : Memref sig .tc .vmem S1x512x128 .f32) (h4 : a4.IsWhole)
    (a5 : Memref sig .tc .vmem S1x512x1 .f32) (h5 : a5.IsWhole) (hc : cond0_0 i)
    (x0 : Vec F S1x1x1x8000 .i32) (x1 : Vec F S1x8000x128 .f32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x512x128) hz3, View.readCov_unit_zero (S := S1x512x128) _ hz3]
  simp only [View.readAt_eq_ld, h2.read_unread, h3.read_unread, h4.read_unread, h5.read_unread,
    View.ld_unit_zero (S := S1x1x1x8000) hz4, View.ld_unit_zero (S := S1x8000x128) hz3,
    View.ld_unit_zero (S := S1x512x128) hz3, View.ld_unit_zero (S := S1x512x1) hz3]

/-- A first tile: the count block becomes the count payload over the zero block just stored and read back. -/
theorem out_A3 (c : Dev nD) (i : grid0.Coords) (a2 : Memref sig .tc .vmem S1x1x1x8000 .i32) (h2 : a2.IsWhole)
    (a3 : Memref sig .tc .vmem S1x8000x128 .f32) (h3 : a3.IsWhole) (a4 : Memref sig .tc .vmem S1x512x128 .f32) (h4 : a4.IsWhole)
    (a5 : Memref sig .tc .vmem S1x512x1 .f32) (h5 : a5.IsWhole) (hc : cond0_0 i)
    (x0 : Vec F S1x1x1x8000 .i32) (x1 : Vec F S1x8000x128 .f32) :
    out0_A_3 c i a2 h2 a3 h3 a4 h4 a5 h5 hc x0 x1 = k0_pay5 x0 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x512x1) hz3, View.readCov_unit_zero (S := S1x512x1) _ hz3]
  simp only [View.readAt_eq_ld, h2.read_unread, h3.read_unread, h4.read_unread, h5.read_unread,
    View.ld_unit_zero (S := S1x1x1x8000) hz4, View.ld_unit_zero (S := S1x8000x128) hz3,
    View.ld_unit_zero (S := S1x512x128) hz3, View.ld_unit_zero (S := S1x512x1) hz3]

end Cert.KernelIdeal.KVal

end
-- ==== Proof.TileSum.lean ====
/-
  The edges, cut into 2 halves of 100 tiles of 8000: edge number `c·800000 + i·8000 + e` is edge `e` of tile `i` of
  half `c`. Summing any quantity tile by tile over both halves is summing it over all 1600000 edges, in any
  commutative monoid. Also: a 0/1 factor that marks "the word equals the graph number" times a value is that value
  where the word, read as a signed integer, is the graph number, and zero elsewhere.
-/
import Mathlib.Algebra.BigOperators.Fin
import Mathlib.Data.EReal.Basic
import Mathlib.Data.Fintype.BigOperators

noncomputable section

open scoped BigOperators

namespace Cert.TileSum

/-- Edge `e` of tile `i` of half `c`, as an edge number. -/
def tileIdx (c : Fin 2) (i : Fin 100) (e : Fin 8000) : Fin 1600000 :=
  ⟨c.val * 800000 + i.val * 8000 + e.val, by have := c.isLt; have := i.isLt; have := e.isLt; omega⟩

theorem tileIdx_val (c : Fin 2) (i : Fin 100) (e : Fin 8000) : (tileIdx c i e).val = c.val * 800000 + i.val * 8000 + e.val := rfl

/-- Half, tile and edge-in-tile determine the edge number and are recovered from it by division with remainder:
`n = (n / 800000)·800000 + (n % 800000 / 8000)·8000 + n % 8000`. -/
private def tileEquiv : (Fin 2 × Fin 100 × Fin 8000) ≃ Fin 1600000 where
  toFun p := tileIdx p.1 p.2.1 p.2.2
  invFun n :=
    (⟨n.val / 800000, by have := n.isLt; omega⟩,
     ⟨n.val % 800000 / 8000, by have := n.isLt; omega⟩,
     ⟨n.val % 8000, by omega⟩)
  left_inv := by
    rintro ⟨c, i, e⟩
    have hc := c.isLt
    have hi := i.isLt
    have he := e.isLt
    refine Prod.ext ?_ (Prod.ext ?_ ?_) <;> apply Fin.ext <;> simp only [tileIdx_val] <;> omega
  right_inv := by
    intro n
    have hn := n.isLt
    apply Fin.ext
    simp only [tileIdx_val]
    omega

/-- Tile by tile over both halves is over all edges. -/
theorem sum_tiles {M : Type*} [AddCommMonoid M] (a : Fin 1600000 → M) :
    ∑ c : Fin 2, ∑ i : Fin 100, ∑ e : Fin 8000, a (tileIdx c i e) = ∑ e' : Fin 1600000, a e' := by
  -- reindex the sum over all edges along the bijection, then split the sum over triples into three sums
  rw [← Equiv.sum_comp tileEquiv a]
  simp only [Fintype.sum_prod_type]
  rfl

/-- For a graph number below 512, a 32-bit word is that number exactly when its signed reading is that number:
the signed reading of a word below `2^31` is its unsigned reading, and of a word from `2^31` on it is negative. -/
private theorem eq_ofNat_iff (s : BitVec 32) (g : Fin 512) :
    s = BitVec.ofNat 32 g.val ↔ s.toInt = (g.val : ℤ) := by
  have hg := g.isLt
  have hs := s.isLt
  rw [BitVec.toInt_eq_toNat_cond]
  constructor
  · intro h
    subst h
    simp only [BitVec.toNat_ofNat]
    split <;> omega
  · intro h
    apply BitVec.eq_of_toNat_eq
    simp only [BitVec.toNat_ofNat]
    split at h <;> omega

/-- The 0/1 mark of "the word is the graph number" as a factor selects the value. -/
theorem onehot_mul (s : BitVec 32) (g : Fin 512) (x : EReal) :
    (if s = BitVec.ofNat 32 g.val then (1 : EReal) else 0) * x = if s.toInt = (g.val : ℤ) then x else 0 := by
  by_cases h : s = BitVec.ofNat 32 g.val
  · rw [if_pos h, if_pos ((eq_ofNat_iff s g).mp h), one_mul]
  · rw [if_neg h, if_neg (fun h' => h ((eq_ofNat_iff s g).mpr h')), zero_mul]

/-- The mark by itself. -/
theorem onehot_eq (s : BitVec 32) (g : Fin 512) :
    (if s = BitVec.ofNat 32 g.val then (1 : EReal) else 0) = if s.toInt = (g.val : ℤ) then (1 : EReal) else 0 := by
  by_cases h : s = BitVec.ofNat 32 g.val
  · rw [if_pos h, if_pos ((eq_ofNat_iff s g).mp h)]
  · rw [if_neg h, if_neg (fun h' => h ((eq_ofNat_iff s g).mpr h'))]

/-- An equality test widened to 32 bits and read as a signed integer is 1 where the words are equal and 0 elsewhere. -/
theorem eqBit_toReal (s t : BitVec 32) :
    (((((BitVec.ofBool (s == t)).setWidth 32).toInt : ℝ)) : EReal) = if s = t then (1 : EReal) else 0 := by
  -- the two closed readings: the one-bit word 1 widened reads 1, the one-bit word 0 widened reads 0
  have h1 : ((BitVec.ofBool true).setWidth 32).toInt = 1 := by decide
  have h0 : ((BitVec.ofBool false).setWidth 32).toInt = 0 := by decide
  by_cases h : s = t
  · have hb : (s == t) = true := beq_iff_eq.mpr h
    rw [hb, if_pos h, h1, Int.cast_one, EReal.coe_one]
  · have hb : (s == t) = false := beq_eq_false_iff_ne.mpr h
    rw [hb, if_neg h, h0, Int.cast_zero, EReal.coe_zero]

end Cert.TileSum

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KPay.lean ====
/-
  The body's arithmetic, read entry by entry over the extended reals.

  A tile holds 8000 segment ids and 8000 edge rows. The mark of graph `g` at edge `e` of the tile is 1 when the id of `e` is the
  word `g` and 0 otherwise (an equality test, widened and converted). The sum payload adds to entry (g, f) of the block it
  starts from the sum over the tile's edges of the mark times the edge's feature `f` (a matrix product of the marks with the
  edge rows into a zero accumulator; rounding the factors to a narrower format changes nothing over the reals). The count
  payload adds to entry `g` the sum of the marks. The two zero payloads are zero everywhere.
-/
import proofs.«404079_j18159121728221_2_alg».proof.Proof.Gen.KernelIdeal.Skeleton
import proofs.«404079_j18159121728221_2_alg».proof.Proof.TileSum
import proofs.«404079_j18159121728221_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.KPay

open Cert.KernelIdeal Cert.KernelIdeal.Gen Idealize.ShloMosaic.ValueIdx

/-- The mark of graph `g` at edge `e` of a tile of segment ids. -/
def mark (x0 : Vec Ideal S1x1x1x8000 .i32) (g : Fin 512) (e : Fin 8000) : EReal :=
  if x0 (ix4 0 0 0 e) = BitVec.ofNat 32 g.val then 1 else 0

theorem pay1_apply (j : S1x512x128.Idx) : k0_pay1 (F := Ideal) j = 0 := by
  unfold k0_pay1
  show broadcast S512x128 (Scalar.ofBits (F := Ideal) .f32 0x00000000#32) _ = 0
  exact Ideal.ofBits_zero_f32

theorem pay2_apply (j : S1x512x1.Idx) : k0_pay2 (F := Ideal) j = 0 := by
  unfold k0_pay2
  show broadcast S512x1 (Scalar.ofBits (F := Ideal) .f32 0x00000000#32) _ = 0
  exact Ideal.ofBits_zero_f32

theorem pay3_apply (x0 : Vec Ideal S1x1x1x8000 .i32) (g : Fin 512) (e : Fin 8000) :
    k0_pay3 (F := Ideal) x0 (ix2 g e) = mark x0 g e := by
  have h6 : broadcastTo S512x8000 (shapeCast S1x8000 x0 shapeCasts_S1x1x1x8000_S1x8000) broadcasts_S1x8000_S512x8000 (ix2 g e)
      = x0 (ix4 0 0 0 e) := by
    rw [broadcastTo_apply _ broadcasts_S1x8000_S512x8000 (ix2 g e) (ix2 0 e) (fun a => by
      match a with
      | ⟨0, _⟩ => show (0 : ℕ) = if (1 : Nat) = 1 then 0 else _; rw [if_pos rfl]
      | ⟨1, _⟩ => show e.val = if (8000 : Nat) = 1 then 0 else e.val; rw [if_neg (by decide)])]
    exact shapeCast_apply x0 _ (ix2 0 e) (ix4 0 0 0 e) (by
      rw [Shape.rowMajor_val_four, Shape.rowMajor_val_two]
      show ((0 * 1 + 0) * 1 + 0) * 8000 + e.val = 0 * 8000 + e.val
      omega)
  have h7 : broadcastTo S512x8000 (iota .tc S512x1 32 [0] iota_S512x1_d0_w32) broadcasts_S512x1_S512x8000 (ix2 g e)
      = BitVec.ofNat 32 g.val := by
    rw [broadcastTo_apply _ broadcasts_S512x1_S512x8000 (ix2 g e) (ix2 g 0) (fun a => by
      match a with
      | ⟨0, _⟩ => show g.val = if (512 : Nat) = 1 then 0 else g.val; rw [if_neg (by decide)]
      | ⟨1, _⟩ => show (0 : ℕ) = if (1 : Nat) = 1 then 0 else _; rw [if_pos rfl]), iota_single_apply]
  unfold k0_pay3 mark
  show FloatOps.sitofp (F := Ideal) .f32 ((IntOp.cmpi .eq
      (broadcastTo S512x8000 (shapeCast S1x8000 x0 shapeCasts_S1x1x1x8000_S1x8000) broadcasts_S1x8000_S512x8000 (ix2 g e))
      (broadcastTo S512x8000 (iota .tc S512x1 32 [0] iota_S512x1_d0_w32) broadcasts_S512x1_S512x8000 (ix2 g e))).setWidth 32) = _
  rw [h6, h7]
  exact Cert.TileSum.eqBit_toReal _ _

/-- The matrix-product record of the body is the plain "rows × contraction by contraction × columns" one. -/
theorem dot_eq_plain : dot_S512x8000_S8000x128_S512x128_1_0_0_1_n_n = DotDims.plain 512 8000 128 := rfl

theorem pay4_apply (x0 : Vec Ideal S1x1x1x8000 .i32) (x1 : Vec Ideal S1x8000x128 .f32) (acc : Vec Ideal S1x512x128 .f32)
    (g : Fin 512) (f : Fin 128) :
    k0_pay4 (F := Ideal) x0 x1 acc (ix3 0 g f) = acc (ix3 0 g f) + ∑ e : Fin 8000, mark x0 g e * x1 (ix3 0 e f) := by
  unfold k0_pay4
  rw [shapeCast_ab_1ab_apply, addf_apply, shapeCast_1ab_ab_apply]
  refine congrArg (fun t => acc (ix3 0 g f) + t) ?_
  rw [dot_eq_plain]
  refine (Cert.LibPlainDot.matmul_plain_apply 512 8000 128 none _ _ g f).trans ?_
  refine Finset.sum_congr rfl fun e _ => ?_
  rw [truncf_apply, truncf_apply, pay3_apply, shapeCast_1ab_ab_apply]

theorem pay5_apply (x0 : Vec Ideal S1x1x1x8000 .i32) (acc : Vec Ideal S1x512x1 .f32) (g : Fin 512) :
    k0_pay5 (F := Ideal) x0 acc (ix3 0 g 0) = acc (ix3 0 g 0) + ∑ e : Fin 8000, mark x0 g e := by
  unfold k0_pay5
  rw [shapeCast_ab_1ab_apply, addf_apply, shapeCast_1ab_ab_apply]
  refine congrArg (fun t => acc (ix3 0 g 0) + t) ?_
  rw [shapeCast_apply _ shapeCasts_S512_S512x1 (ix2 g 0) (ix1 g) (by
    rw [Shape.rowMajor_val_one, Shape.rowMajor_val_two]
    show g.val = g.val * 1 + 0
    omega)]
  refine (Ideal.multiReduction_add_single (k0_pay3 (F := Ideal) x0) 0x00000000#32 reduces_S512x8000_S512 _ _ (ix1 g)).trans ?_
  show ∑ e : Fin 8000, k0_pay3 (F := Ideal) x0 (reduces_S512x8000_S512.lift (ix1 g) e) = _
  refine Finset.sum_congr rfl fun e _ => ?_
  rw [show reduces_S512x8000_S512.lift (ix1 g) e = ix2 g e from
    funext fun a => Fin.ext (by match a with | ⟨0, _⟩ => rfl | ⟨1, _⟩ => rfl)]
  exact pay3_apply x0 g e

end Cert.KernelIdeal.KPay

end
-- ==== Proof.KInv.lean ====
/-
  What the two accumulator blocks hold after each grid point.

  The grid has 200 points: point `n` is tile `n % 100` of core `n / 100`. A tile contributes, to entry (g, f) of the sum
  block, the sum over its 8000 edges of the mark of `g` times feature `f`, and to entry `g` of the count block the sum of
  the marks. At a core's first tile the blocks restart from zero, at every other tile they continue from the tile before.
  So after point `n` the blocks hold the contributions of the tiles `n - n % 100, …, n` of the current core, by induction
  on the point.
-/
import proofs.«404079_j18159121728221_2_alg».proof.Proof.Gen.KernelIdeal.Frame
import proofs.«404079_j18159121728221_2_alg».proof.Proof.KPieces
import proofs.«404079_j18159121728221_2_alg».proof.Proof.KPay

noncomputable section

open Idealize.ShloMosaic Idealize.ShloMosaic.TcCoe Idealize.SL.Sem
open Idealize.ShloMosaic.Pipeline (Dat)

open scoped BigOperators

namespace Cert.KernelIdeal.KInv

open Cert.KernelIdeal Cert.KernelIdeal.Gen Idealize.ShloMosaic.ValueIdx Cert.KernelIdeal.KPay

variable (m : (ℓ : Loc nD τ sig) → Buf (Elt Ideal) ℓ)

/-- The tile of segment ids point `t` reads. -/
abbrev segBlk (c : Dev nD) (t : Fin cfg0.N) : Vec Ideal S1x1x1x8000 .i32 := iblk m c 0 t
/-- The tile of edge rows point `t` reads. -/
abbrev eaBlk (c : Dev nD) (t : Fin cfg0.N) : Vec Ideal S1x8000x128 .f32 := iblk m c 1 t

/-- Point `n`'s contribution to entry (g, f) of the sum block. -/
def tileSum (c : Dev nD) (n : ℕ) (g : Fin 512) (f : Fin 128) : EReal :=
  if h : n < cfg0.N then ∑ e : Fin 8000, mark (segBlk m c ⟨n, h⟩) g e * eaBlk m c ⟨n, h⟩ (ix3 0 e f) else 0

/-- Point `n`'s contribution to entry `g` of the count block. -/
def tileCnt (c : Dev nD) (n : ℕ) (g : Fin 512) : EReal :=
  if h : n < cfg0.N then ∑ e : Fin 8000, mark (segBlk m c ⟨n, h⟩) g e else 0

/-- At a first tile the sum block is the tile's contribution. -/
theorem sum_first (c : Dev nD) (t : Fin cfg0.N) (h0 : t.val % 100 = 0) (g : Fin 512) (f : Fin 128) :
    (outsAt0 m c t.val t.isLt).1 (ix3 0 g f) = tileSum m c t.val g f := by
  rw [outsAt0_A m c t h0]
  dsimp only
  refine (congrFun (Cert.KernelIdeal.KVal.out_A2 (F := Ideal) c (grid0.coords t) (ms0_0 t) (hs0_0 t) (ms0_1 t) (hs0_1 t) (ms0_2 t) (hs0_2 t)
    (ms0_3 t) (hs0_3 t) ((hcond0_0 t).mpr h0) (segBlk m c t) (eaBlk m c t)) (ix3 0 g f)).trans ?_
  refine (pay4_apply (segBlk m c t) (eaBlk m c t) (k0_pay1 (F := Ideal)) g f).trans ?_
  rw [pay1_apply, zero_add]
  unfold tileSum
  rw [dif_pos t.isLt]

/-- At a first tile the count block is the tile's contribution. -/
theorem cnt_first (c : Dev nD) (t : Fin cfg0.N) (h0 : t.val % 100 = 0) (g : Fin 512) :
    (outsAt0 m c t.val t.isLt).2 (ix3 0 g 0) = tileCnt m c t.val g := by
  rw [outsAt0_A m c t h0]
  dsimp only
  refine (congrFun (Cert.KernelIdeal.KVal.out_A3 (F := Ideal) c (grid0.coords t) (ms0_0 t) (hs0_0 t) (ms0_1 t) (hs0_1 t) (ms0_2 t) (hs0_2 t)
    (ms0_3 t) (hs0_3 t) ((hcond0_0 t).mpr h0) (segBlk m c t) (eaBlk m c t)) (ix3 0 g 0)).trans ?_
  refine (pay5_apply (segBlk m c t) (k0_pay2 (F := Ideal)) g).trans ?_
  rw [pay2_apply, zero_add]
  unfold tileCnt
  rw [dif_pos t.isLt]

/-- What the point before left, as a pair of blocks. -/
abbrev prev (c : Dev nD) (t : Fin cfg0.N) : Vec Ideal S1x512x128 .f32 × Vec Ideal S1x512x1 .f32 :=
  outsAt0 m c (t.val - 1) (Nat.lt_of_le_of_lt (Nat.sub_le _ _) t.isLt)

/-- At a later tile the sum block is what the point before left plus the tile's contribution. -/
theorem sum_next (c : Dev nD) (t : Fin cfg0.N) (h0 : ¬t.val % 100 = 0) (g : Fin 512) (f : Fin 128) :
    (outsAt0 m c t.val t.isLt).1 (ix3 0 g f) = (prev m c t).1 (ix3 0 g f) + tileSum m c t.val g f := by
  rw [outsAt0_B m c t h0]
  dsimp only
  refine (congrFun (Cert.KernelIdeal.KVal.out_B2 (F := Ideal) c (grid0.coords t) (ms0_0 t) (hs0_0 t) (ms0_1 t) (hs0_1 t) (ms0_2 t) (hs0_2 t)
    (ms0_3 t) (hs0_3 t) (fun h => h0 ((hcond0_0 t).mp h)) (segBlk m c t) (eaBlk m c t)
    (prev m c t).1 (prev m c t).2) (ix3 0 g f)).trans ?_
  refine (pay4_apply (segBlk m c t) (eaBlk m c t) (prev m c t).1 g f).trans ?_
  unfold tileSum
  rw [dif_pos t.isLt]

/-- At a later tile the count block is what the point before left plus the tile's contribution. -/
theorem cnt_next (c : Dev nD) (t : Fin cfg0.N) (h0 : ¬t.val % 100 = 0) (g : Fin 512) :
    (outsAt0 m c t.val t.isLt).2 (ix3 0 g 0) = (prev m c t).2 (ix3 0 g 0) + tileCnt m c t.val g := by
  rw [outsAt0_B m c t h0]
  dsimp only
  refine (congrFun (Cert.KernelIdeal.KVal.out_B3 (F := Ideal) c (grid0.coords t) (ms0_0 t) (hs0_0 t) (ms0_1 t) (hs0_1 t) (ms0_2 t) (hs0_2 t)
    (ms0_3 t) (hs0_3 t) (fun h => h0 ((hcond0_0 t).mp h)) (segBlk m c t) (eaBlk m c t)
    (prev m c t).1 (prev m c t).2) (ix3 0 g 0)).trans ?_
  refine (pay5_apply (segBlk m c t) (prev m c t).2 g).trans ?_
  unfold tileCnt
  rw [dif_pos t.isLt]

/-- After point `n` the sum block holds the contributions of the current core's tiles up to `n`. -/
theorem sum_closed (c : Dev nD) : ∀ (n : ℕ) (h : n < cfg0.N) (g : Fin 512) (f : Fin 128),
    (outsAt0 m c n h).1 (ix3 0 g f) = ∑ j ∈ Finset.range (n % 100 + 1), tileSum m c (n - n % 100 + j) g f
  | 0, h, g, f => by
    rw [sum_first m c ⟨0, h⟩ rfl g f]
    simp
  | n + 1, h, g, f => by
    by_cases h0 : (n + 1) % 100 = 0
    · rw [sum_first m c ⟨n + 1, h⟩ h0 g f, h0]
      simp
    · rw [sum_next m c ⟨n + 1, h⟩ h0 g f]
      show (outsAt0 m c n _).1 (ix3 0 g f) + _ = _
      rw [sum_closed c n (Nat.lt_of_succ_lt h) g f]
      have e1 : (n + 1) % 100 = n % 100 + 1 := by omega
      have e2 : n + 1 - (n % 100 + 1) = n - n % 100 := by omega
      have e3 : n - n % 100 + (n % 100 + 1) = n + 1 := by omega
      rw [e1, e2, Finset.sum_range_succ _ (n % 100 + 1), e3]

/-- After point `n` the count block holds the contributions of the current core's tiles up to `n`. -/
theorem cnt_closed (c : Dev nD) : ∀ (n : ℕ) (h : n < cfg0.N) (g : Fin 512),
    (outsAt0 m c n h).2 (ix3 0 g 0) = ∑ j ∈ Finset.range (n % 100 + 1), tileCnt m c (n - n % 100 + j) g
  | 0, h, g => by
    rw [cnt_first m c ⟨0, h⟩ rfl g]
    simp
  | n + 1, h, g => by
    by_cases h0 : (n + 1) % 100 = 0
    · rw [cnt_first m c ⟨n + 1, h⟩ h0 g, h0]
      simp
    · rw [cnt_next m c ⟨n + 1, h⟩ h0 g]
      show (outsAt0 m c n _).2 (ix3 0 g 0) + _ = _
      rw [cnt_closed c n (Nat.lt_of_succ_lt h) g]
      have e1 : (n + 1) % 100 = n % 100 + 1 := by omega
      have e2 : n + 1 - (n % 100 + 1) = n - n % 100 := by omega
      have e3 : n - n % 100 + (n % 100 + 1) = n + 1 := by omega
      rw [e1, e2, Finset.sum_range_succ _ (n % 100 + 1), e3]

end Cert.KernelIdeal.KInv

end
-- ==== Proof.KArr.lean ====
/-
  The tiles the grid points read, as pieces of the program's arguments.

  Before the region the program gathers one segment id per edge (the graph of the edge's source node) and views the ids as
  2 × 100 × 1 × 8000 and the edge rows as 2 × 800000 × 128: both are re-readings of the same row-major order. Point `n`
  (tile `n % 100` of core `n / 100`) reads ids and rows of the edges numbered `(n / 100)·800000 + (n % 100)·8000 + e`.
  So a point's contribution to the sum block and to the count block is a sum over exactly those edges.
-/
import proofs.«404079_j18159121728221_2_alg».proof.Proof.Gen.KernelIdeal.Frame
import proofs.«404079_j18159121728221_2_alg».proof.Proof.KInv
import proofs.«404079_j18159121728221_2_alg».proof.Proof.TileSum
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

open scoped BigOperators

namespace Cert.KernelIdeal.KArr

open Cert.KernelIdeal Cert.KernelIdeal.Gen Idealize.ShloMosaic.ValueIdx Cert.KernelIdeal.KPay Cert.KernelIdeal.KInv

variable (m : (ℓ : Loc nD τ sig) → Buf (Elt Ideal) ℓ)

/-- The gathered segment ids, one per edge, as a function of the edge list and the node-to-graph table. -/
def segIds (x1 : IVec S2x1600000 32) (x4 : IVec S50000 32) : IVec S1600000 32 :=
  Host.gather gather_S50000_S1600000x1_S1600000_n_0_n_n_0_1_1 x4
    (broadcastInDim S1600000x1 ![0] bcast_S1600000_S1600000x1_0
      (select (cmpi .slt (shapeCast S1600000 (extractStridedSlice S1x1600000 ![0, 0] x1 slices_S2x1600000_S1x1600000_0_0) shapeCasts_S1x1600000_S1600000)
          (broadcastInDim S1600000 ![] bcast_S_S1600000 (constantI S_ 32 0#32)))
        (addi (shapeCast S1600000 (extractStridedSlice S1x1600000 ![0, 0] x1 slices_S2x1600000_S1x1600000_0_0) shapeCasts_S1x1600000_S1600000)
          (broadcastInDim S1600000 ![] bcast_S_S1600000 (constantI S_ 32 50000#32)))
        (shapeCast S1600000 (extractStridedSlice S1x1600000 ![0, 0] x1 slices_S2x1600000_S1x1600000_0_0) shapeCasts_S1x1600000_S1600000)))

/-- The ids the region finds: the gathered ids viewed as 2 × 100 × 1 × 8000. -/
theorem V_v9 (c : Dev nD) : (V m c main_v9 : S2x100x1x8000.Idx → BitVec 32)
    = shapeCast S2x100x1x8000 (segIds (m ((c : Thread nD τ).loc main_arg1)) (m ((c : Thread nD τ).loc main_arg4))) shapeCasts_S1600000_S2x100x1x8000 := by
  show StableHlo.after hostOps0 (fun b => m (c, b)) (Proc.devRef .tc main_v9) = _
  after_results
  rfl

/-- The edge rows the region finds: the edge rows viewed as 2 × 800000 × 128. -/
theorem V_v10 (c : Dev nD) : (V m c main_v10 : S2x800000x128.Idx → EReal)
    = shapeCast S2x800000x128 (m ((c : Thread nD τ).loc main_arg2)) shapeCasts_S1600000x128_S2x800000x128 := by
  show StableHlo.after hostOps0 (fun b => m (c, b)) (Proc.devRef .tc main_v10) = _
  after_results
  rfl

/-- The printed block-index maps, decided over the grid: point `t` reads tile `t % 100` of core `t / 100` and writes the
    blocks of core `t / 100`. -/
theorem idx_facts : ∀ t : Fin cfg0.N,
    win0_0.index t (0 : Fin 4) = t.val / 100 ∧ win0_0.index t (1 : Fin 4) = t.val % 100
    ∧ win0_0.index t (2 : Fin 4) = 0 ∧ win0_0.index t (3 : Fin 4) = 0
    ∧ win0_1.index t (0 : Fin 3) = t.val / 100 ∧ win0_1.index t (1 : Fin 3) = t.val % 100 ∧ win0_1.index t (2 : Fin 3) = 0
    ∧ win0_2.index t (0 : Fin 3) = t.val / 100 ∧ win0_2.index t (1 : Fin 3) = 0 ∧ win0_2.index t (2 : Fin 3) = 0
    ∧ win0_3.index t (0 : Fin 3) = t.val / 100 ∧ win0_3.index t (1 : Fin 3) = 0 ∧ win0_3.index t (2 : Fin 3) = 0 :=
  (by decide +kernel : ∀ t : Fin grid0.N, _)

/-- The segment ids, one per edge number. -/
abbrev segOf (c : Dev nD) (e' : Fin 1600000) : BitVec 32 :=
  segIds (m ((c : Thread nD τ).loc main_arg1)) (m ((c : Thread nD τ).loc main_arg4)) (ix1 e')

/-- The edge features, by edge number and column. -/
abbrev eaOf (c : Dev nD) (e' : Fin 1600000) (f : Fin 128) : EReal :=
  (m ((c : Thread nD τ).loc main_arg2) : S1600000x128.Idx → EReal) (ix2 e' f)

/-- Entry `e` of the id tile of point `100·cc + i` is the id of edge `cc·800000 + i·8000 + e`. -/
theorem segBlk_apply (c : Dev nD) (t : Fin cfg0.N) (cc : Fin 2) (i : Fin 100) (ht : t.val = 100 * cc.val + i.val) (e : Fin 8000) :
    segBlk m c t (ix4 0 0 0 e) = segOf m c (Cert.TileSum.tileIdx cc i e) := by
  obtain ⟨e0, e1, e2, e3, -⟩ := idx_facts t
  have hcc := cc.isLt
  have hi := i.isLt
  have he := e.isLt
  unfold segBlk iblk
  rw [View.read_apply]
  show V m c main_v9 _ = _
  rw [V_v9]
  refine shapeCast_apply _ shapeCasts_S1600000_S2x100x1x8000 _ (ix1 (Cert.TileSum.tileIdx cc i e)) ?_
  rw [Shape.rowMajor_val_one, Shape.rowMajor_val_four]
  show cc.val * 800000 + i.val * 8000 + e.val
    = (((win0_0.index t (0 : Fin 4) * 1 + 1 * 0) * 100 + (win0_0.index t (1 : Fin 4) * 1 + 1 * 0)) * 1
        + (win0_0.index t (2 : Fin 4) * 1 + 1 * 0)) * 8000 + (win0_0.index t (3 : Fin 4) * 8000 + 1 * e.val)
  rw [e0, e1, e2, e3]
  omega

/-- Entry (e, f) of the edge-row tile of point `100·cc + i` is feature `f` of edge `cc·800000 + i·8000 + e`. -/
theorem eaBlk_apply (c : Dev nD) (t : Fin cfg0.N) (cc : Fin 2) (i : Fin 100) (ht : t.val = 100 * cc.val + i.val) (e : Fin 8000)
    (f : Fin 128) : eaBlk m c t (ix3 0 e f) = eaOf m c (Cert.TileSum.tileIdx cc i e) f := by
  obtain ⟨-, -, -, -, e0, e1, e2, -⟩ := idx_facts t
  have hcc := cc.isLt
  have hi := i.isLt
  have he := e.isLt
  have hf := f.isLt
  unfold eaBlk iblk
  rw [View.read_apply]
  show V m c main_v10 _ = _
  rw [V_v10]
  refine shapeCast_apply _ shapeCasts_S1600000x128_S2x800000x128 _ (ix2 (Cert.TileSum.tileIdx cc i e) f) ?_
  rw [Shape.rowMajor_val_two, Shape.rowMajor_val_three]
  show (cc.val * 800000 + i.val * 8000 + e.val) * 128 + f.val
    = ((win0_1.index t (0 : Fin 3) * 1 + 1 * 0) * 800000 + (win0_1.index t (1 : Fin 3) * 8000 + 1 * e.val)) * 128
        + (win0_1.index t (2 : Fin 3) * 128 + 1 * f.val)
  rw [e0, e1, e2]
  omega

/-- The grid has 200 points. -/
theorem N200 : cfg0.N = 200 := N_0

/-- A point's contribution to the sum block, over its edges by number. -/
theorem tileSum_edges (c : Dev nD) (cc : Fin 2) (i : Fin 100) (g : Fin 512) (f : Fin 128) :
    tileSum m c (100 * cc.val + i.val) g f
      = ∑ e : Fin 8000, if (segOf m c (Cert.TileSum.tileIdx cc i e)).toInt = (g.val : ℤ) then eaOf m c (Cert.TileSum.tileIdx cc i e) f else 0 := by
  have hn : 100 * cc.val + i.val < cfg0.N := by rw [N200]; have := cc.isLt; have := i.isLt; omega
  unfold tileSum
  rw [dif_pos hn]
  refine Finset.sum_congr rfl fun e _ => ?_
  unfold mark
  rw [segBlk_apply m c ⟨_, hn⟩ cc i rfl e, eaBlk_apply m c ⟨_, hn⟩ cc i rfl e f]
  exact Cert.TileSum.onehot_mul _ g _

/-- A point's contribution to the count block, over its edges by number. -/
theorem tileCnt_edges (c : Dev nD) (cc : Fin 2) (i : Fin 100) (g : Fin 512) :
    tileCnt m c (100 * cc.val + i.val) g
      = ∑ e : Fin 8000, if (segOf m c (Cert.TileSum.tileIdx cc i e)).toInt = (g.val : ℤ) then (1 : EReal) else 0 := by
  have hn : 100 * cc.val + i.val < cfg0.N := by rw [N200]; have := cc.isLt; have := i.isLt; omega
  unfold tileCnt
  rw [dif_pos hn]
  refine Finset.sum_congr rfl fun e _ => ?_
  unfold mark
  rw [segBlk_apply m c ⟨_, hn⟩ cc i rfl e]
  exact Cert.TileSum.onehot_eq _ g

end Cert.KernelIdeal.KArr

end
-- ==== Proof.KFinal.lean ====
/-
  The two result arrays of the region after the run.

  Each core writes its two accumulator blocks back once, after its last tile (points 99 and 199), to block `core` of the
  2 × 512 × 128 sums and of the 2 × 512 × 1 counts. By then a block holds the contributions of all 100 tiles of its
  core. The two write-backs cover both arrays, so entry (core, g, f) of the sums is the sum over the core's tiles of their
  contributions to (g, f), and entry (core, g, 0) of the counts likewise.
-/
import proofs.«404079_j18159121728221_2_alg».proof.Proof.Gen.KernelIdeal.Frame
import proofs.«404079_j18159121728221_2_alg».proof.Proof.KInv
import proofs.«404079_j18159121728221_2_alg».proof.Proof.KArr
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

open scoped BigOperators

namespace Cert.KernelIdeal.KFinal

open Cert.KernelIdeal Cert.KernelIdeal.Gen Idealize.ShloMosaic.ValueIdx Cert.KernelIdeal.KInv Cert.KernelIdeal.KArr

variable (m : (ℓ : Loc nD τ sig) → Buf (Elt Ideal) ℓ)

/-- The per-core sums: entry (core, g, f) collects the core's 100 tiles. -/
def sums (c : Dev nD) : S2x512x128.Idx → EReal := fun i =>
  ∑ j ∈ Finset.range 100, tileSum m c (100 * (i 0).val + j) ⟨(i 1).val, (i 1).isLt⟩ ⟨(i 2).val, (i 2).isLt⟩

/-- The per-core counts: entry (core, g, 0) collects the core's 100 tiles. -/
def counts (c : Dev nD) : S2x512x1.Idx → EReal := fun i =>
  ∑ j ∈ Finset.range 100, tileCnt m c (100 * (i 0).val + j) ⟨(i 1).val, (i 1).isLt⟩

/-- After a core's last tile, an entry of its sum block is the matching entry of the per-core sums. -/
theorem last_sum (c : Dev nD) (t : Fin cfg0.N) (h99 : t.val % 100 = 99) (j : S1x512x128.Idx) (i : S2x512x128.Idx)
    (h0 : (i 0).val = t.val / 100) (h1 : (i 1).val = (j 1).val) (h2 : (i 2).val = (j 2).val) :
    (outsAt0 m c t.val t.isLt).1 j = sums m c i := by
  obtain ⟨u, g, f, rfl⟩ : ∃ (u : Fin 1) (g : Fin 512) (f : Fin 128), j = ix3 u g f := ⟨j 0, j 1, j 2, eq_ix3 j⟩
  obtain rfl : u = 0 := Subsingleton.elim _ _
  have hN : t.val < 200 := lt_of_lt_of_eq t.isLt N200
  rw [sum_closed m c t.val t.isLt g f, h99]
  unfold sums
  have hg : (⟨(i 1).val, (i 1).isLt⟩ : Fin 512) = g := Fin.ext h1
  have hf : (⟨(i 2).val, (i 2).isLt⟩ : Fin 128) = f := Fin.ext h2
  rw [hg, hf, h0]
  refine Finset.sum_congr rfl fun jj _ => ?_
  congr 1
  omega

/-- After a core's last tile, an entry of its count block is the matching entry of the per-core counts. -/
theorem last_cnt (c : Dev nD) (t : Fin cfg0.N) (h99 : t.val % 100 = 99) (j : S1x512x1.Idx) (i : S2x512x1.Idx)
    (h0 : (i 0).val = t.val / 100) (h1 : (i 1).val = (j 1).val) :
    (outsAt0 m c t.val t.isLt).2 j = counts m c i := by
  obtain ⟨u, g, f, rfl⟩ : ∃ (u : Fin 1) (g : Fin 512) (f : Fin 1), j = ix3 u g f := ⟨j 0, j 1, j 2, eq_ix3 j⟩
  obtain rfl : u = 0 := Subsingleton.elim _ _
  obtain rfl : f = 0 := Subsingleton.elim _ _
  have hN : t.val < 200 := lt_of_lt_of_eq t.isLt N200
  rw [cnt_closed m c t.val t.isLt g, h99]
  unfold counts
  have hg : (⟨(i 1).val, (i 1).isLt⟩ : Fin 512) = g := Fin.ext h1
  rw [hg, h0]
  refine Finset.sum_congr rfl fun jj _ => ?_
  congr 1
  omega

/-- What a core's last point writes back is its block of the per-core sums. -/
theorem flushed2_eq (c : Dev nD) (t : Fin cfg0.N) (hf : (cfg0.win 2).flush t = true) :
    (dats m 0 c).flushed 2 t = ((cfg0.win 2).blk t).view.read (Elt Ideal) (sums m c) := by
  have h99 : t.val % 100 = 99 := (flush0_2 t).mp hf
  obtain ⟨-, -, -, -, -, -, -, e0, e1, e2, -⟩ := idx_facts t
  show (cfg0.win 2).cut (grid0.coords t) ((dats m 0 c).after 2 t) = _
  rw [after0_2]
  funext j
  show (outsAt0 m c t.val t.isLt).1 j = sums m c (((cfg0.win 2).blk t).view.emb j)
  refine last_sum m c t h99 j _ ?_ ?_ ?_
  · show win0_2.index t (0 : Fin 3) * 1 + 1 * (j 0).val = _
    have hj : (j 0).val < 1 := (j 0).isLt
    rw [e0]; omega
  · show win0_2.index t (1 : Fin 3) * 512 + 1 * (j 1).val = _
    rw [e1]; omega
  · show win0_2.index t (2 : Fin 3) * 128 + 1 * (j 2).val = _
    rw [e2]; omega

/-- What a core's last point writes back is its block of the per-core counts. -/
theorem flushed3_eq (c : Dev nD) (t : Fin cfg0.N) (hf : (cfg0.win 3).flush t = true) :
    (dats m 0 c).flushed 3 t = ((cfg0.win 3).blk t).view.read (Elt Ideal) (counts m c) := by
  have h99 : t.val % 100 = 99 := (flush0_3 t).mp hf
  obtain ⟨-, -, -, -, -, -, -, -, -, -, e0, e1, e2⟩ := idx_facts t
  show (cfg0.win 3).cut (grid0.coords t) ((dats m 0 c).after 3 t) = _
  rw [after0_3]
  funext j
  show (outsAt0 m c t.val t.isLt).2 j = counts m c (((cfg0.win 3).blk t).view.emb j)
  refine last_cnt m c t h99 j _ ?_ ?_
  · show win0_3.index t (0 : Fin 3) * 1 + 1 * (j 0).val = _
    have hj : (j 0).val < 1 := (j 0).isLt
    rw [e0]; omega
  · show win0_3.index t (1 : Fin 3) * 512 + 1 * (j 1).val = _
    rw [e1]; omega

/-- The two last points cover the sums. -/
theorem cover2 (i : S2x512x128.Idx) :
    ∃ t : Fin cfg0.N, (cfg0.win 2).flush t = true ∧ i ∈ ((cfg0.win 2).blk t).view.set := by
  have h0 : (i 0).val < 2 := (i 0).isLt
  have h1 : (i 1).val < 512 := (i 1).isLt
  have h2 : (i 2).val < 128 := (i 2).isLt
  have hn : 100 * (i 0).val + 99 < cfg0.N := by rw [N200]; omega
  obtain ⟨-, -, -, -, -, -, -, e0, e1, e2, -⟩ := idx_facts ⟨100 * (i 0).val + 99, hn⟩
  refine ⟨⟨100 * (i 0).val + 99, hn⟩, (flush0_2 _).mpr (by show (100 * (i 0).val + 99) % 100 = 99; omega), ?_⟩
  show i ∈ ((View.whole main_v11_0).slice (win0_2.rect ⟨100 * (i 0).val + 99, hn⟩)).set
  rw [View.set_slice_whole, Rect.mem_set_unit]
  intro a
  match a with
  | ⟨0, _⟩ =>
    show win0_2.index ⟨100 * (i 0).val + 99, hn⟩ (0 : Fin 3) * 1 ≤ (i 0).val
      ∧ (i 0).val < win0_2.index ⟨100 * (i 0).val + 99, hn⟩ (0 : Fin 3) * 1 + 1
    rw [e0]; dsimp only; omega
  | ⟨1, _⟩ =>
    show win0_2.index ⟨100 * (i 0).val + 99, hn⟩ (1 : Fin 3) * 512 ≤ (i 1).val
      ∧ (i 1).val < win0_2.index ⟨100 * (i 0).val + 99, hn⟩ (1 : Fin 3) * 512 + 512
    rw [e1]; omega
  | ⟨2, _⟩ =>
    show win0_2.index ⟨100 * (i 0).val + 99, hn⟩ (2 : Fin 3) * 128 ≤ (i 2).val
      ∧ (i 2).val < win0_2.index ⟨100 * (i 0).val + 99, hn⟩ (2 : Fin 3) * 128 + 128
    rw [e2]; omega

/-- The two last points cover the counts. -/
theorem cover3 (i : S2x512x1.Idx) :
    ∃ t : Fin cfg0.N, (cfg0.win 3).flush t = true ∧ i ∈ ((cfg0.win 3).blk t).view.set := by
  have h0 : (i 0).val < 2 := (i 0).isLt
  have h1 : (i 1).val < 512 := (i 1).isLt
  have h2 : (i 2).val < 1 := (i 2).isLt
  have hn : 100 * (i 0).val + 99 < cfg0.N := by rw [N200]; omega
  obtain ⟨-, -, -, -, -, -, -, -, -, -, e0, e1, e2⟩ := idx_facts ⟨100 * (i 0).val + 99, hn⟩
  refine ⟨⟨100 * (i 0).val + 99, hn⟩, (flush0_3 _).mpr (by show (100 * (i 0).val + 99) % 100 = 99; omega), ?_⟩
  show i ∈ ((View.whole main_v11_1).slice (win0_3.rect ⟨100 * (i 0).val + 99, hn⟩)).set
  rw [View.set_slice_whole, Rect.mem_set_unit]
  intro a
  match a with
  | ⟨0, _⟩ =>
    show win0_3.index ⟨100 * (i 0).val + 99, hn⟩ (0 : Fin 3) * 1 ≤ (i 0).val
      ∧ (i 0).val < win0_3.index ⟨100 * (i 0).val + 99, hn⟩ (0 : Fin 3) * 1 + 1
    rw [e0]; dsimp only; omega
  | ⟨1, _⟩ =>
    show win0_3.index ⟨100 * (i 0).val + 99, hn⟩ (1 : Fin 3) * 512 ≤ (i 1).val
      ∧ (i 1).val < win0_3.index ⟨100 * (i 0).val + 99, hn⟩ (1 : Fin 3) * 512 + 512
    rw [e1]; omega
  | ⟨2, _⟩ =>
    show win0_3.index ⟨100 * (i 0).val + 99, hn⟩ (2 : Fin 3) * 1 ≤ (i 2).val
      ∧ (i 2).val < win0_3.index ⟨100 * (i 0).val + 99, hn⟩ (2 : Fin 3) * 1 + 1
    rw [e2]; omega

/-- The sums array after the run. -/
theorem final2 (c : Dev nD) : (dats m 0 c).arrAt 2 cfg0.N = sums m c :=
  (dats m 0 c).arrAt_eq_of_cover 2 (sums m c) (flushed2_eq m c) cover2

/-- The counts array after the run. -/
theorem final3 (c : Dev nD) : (dats m 0 c).arrAt 3 cfg0.N = counts m c :=
  (dats m 0 c).arrAt_eq_of_cover 3 (counts m c) (flushed3_eq m c) cover3

end Cert.KernelIdeal.KFinal

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.KTail.lean ====
/-
  The host lines after the region, as one function of what they read.

  They add the two cores' sum blocks and the two cores' count blocks, divide the sums by the larger of the count and one
  (the mean), put the global features beside the mean, and apply the two-layer perceptron: a product with the first
  weights plus the first bias, the positive part, a product with the second weights plus the second bias. The part from
  the mean on is named once, so that it is never opened when the two programs are compared.
-/
import proofs.«404079_j18159121728221_2_alg».proof.Proof.Gen.KernelIdeal.Frame
import proofs.«404079_j18159121728221_2_alg».proof.Proof.LibTRef
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.KTail

open Cert.KernelIdeal Cert.KernelIdeal.Gen Idealize.ShloMosaic.StableHlo

variable {F : FTy → Type} [FloatOps F]

/-- The perceptron applied to the global features beside the mean. -/
def tail (mean : FVec F S512x128 .f32) (u : FVec F S512x64 .f32) (W1 : FVec F S192x64 .f32) (b1 : FVec F S64 .f32)
    (W2 : FVec F S64x64 .f32) (b2 : FVec F S64 .f32) : FVec F S512x64 .f32 :=
  addf (Host.dotGeneral dot_S512x64_S64x64_S512x64_1_0_0_1_n_n none
      (maximumf (addf (Host.dotGeneral dot_S512x192_S192x64_S512x64_1_0_0_1_n_n none
            (concatenate S512x192 1 [⟨S512x64, u⟩, ⟨S512x128, mean⟩] concatenates_S512x64_S512x128_S512x192_d1) W1)
          (broadcastInDim S512x64 ![0, 1] bcast_S1x64_S512x64_0_1 (broadcastInDim S1x64 ![1] bcast_S64_S1x64_1 b1)))
        (broadcastInDim S512x64 ![] bcast_S_S512x64 (constant S_ .f32 0x00000000#32))) W2)
    (broadcastInDim S512x64 ![0, 1] bcast_S1x64_S512x64_0_1 (broadcastInDim S1x64 ![1] bcast_S64_S1x64_1 b2))

/-- The mean from the per-core sums and counts. -/
def meanOf (S : FVec F S2x512x128 .f32) (C : FVec F S2x512x1 .f32) : FVec F S512x128 .f32 :=
  Host.divf
    (addf (shapeCast S512x128 (extractStridedSlice S1x512x128 ![0, 0, 0] S slices_S2x512x128_S1x512x128_0_0_0) shapeCasts_S1x512x128_S512x128)
      (shapeCast S512x128 (extractStridedSlice S1x512x128 ![1, 0, 0] S slices_S2x512x128_S1x512x128_1_0_0) shapeCasts_S1x512x128_S512x128))
    (broadcastInDim S512x128 ![0, 1] bcast_S512x1_S512x128_0_1
      (maximumf
        (addf (shapeCast S512x1 (extractStridedSlice S1x512x1 ![0, 0, 0] C slices_S2x512x1_S1x512x1_0_0_0) shapeCasts_S1x512x1_S512x1)
          (shapeCast S512x1 (extractStridedSlice S1x512x1 ![1, 0, 0] C slices_S2x512x1_S1x512x1_1_0_0) shapeCasts_S1x512x1_S512x1))
        (broadcastInDim S512x1 ![] bcast_S_S512x1 (constant S_ .f32 0x3F800000#32))))

/-- The result buffer after the host lines that follow the region, from any contents they start from. -/
theorem tail_after (X : Valuation τ sig (Elt F)) :
    after (List.flatten [hostOps1, hostOps1_1, hostOps1_2]) X (Proc.devRef .tc main_v35)
      = tail (meanOf (X (Proc.devRef .tc main_v11_0)) (X (Proc.devRef .tc main_v11_1))) (X (Proc.devRef .tc main_arg3))
          (X (Proc.devRef .tc main_arg5)) (X (Proc.devRef .tc main_arg6)) (X (Proc.devRef .tc main_arg7)) (X (Proc.devRef .tc main_arg8)) := by
  simp only [hostOps1, hostOps1_1, hostOps1_2, List.flatten_cons, List.flatten_nil, List.append_nil, List.cons_append, List.nil_append]
  after_results_simp <;> rfl

end Cert.KernelIdeal.KTail

end
-- ==== Proof.KRun.lean ====
/-
  The idealized kernel program's run, read: every execution ends with the result at the perceptron of the mean of the
  per-core sums and counts, and the arguments as they were. The region's two arrays end at the per-core sums and counts; the
  host lines after the region read them, and the arguments no line writes, and compute the result from them.
-/
import proofs.«404079_j18159121728221_2_alg».proof.Proof.KFinal
import proofs.«404079_j18159121728221_2_alg».proof.Proof.KTail
import proofs.«404079_j18159121728221_2_alg».proof.Proof.Gen.KernelIdeal.Frame

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.KFinal

variable (m : (ℓ : Loc nD τ sig) → Buf (Elt Ideal) ℓ) (ρ : Dev nD → PrngReg)

/-- The result the program ends with. -/
def result (c : Dev nD) : Buf (Elt Ideal) ((c.tc : Thread nD τ).loc main_v35) :=
  Cert.KernelIdeal.KTail.tail (F := Ideal) (Cert.KernelIdeal.KTail.meanOf (sums m c) (counts m c))
    (m ((c.tc : Thread nD τ).loc main_arg3)) (m ((c.tc : Thread nD τ).loc main_arg5)) (m ((c.tc : Thread nD τ).loc main_arg6))
    (m ((c.tc : Thread nD τ).loc main_arg7)) (m ((c.tc : Thread nD τ).loc main_arg8))

/-- What the lines after the region leave in the result buffer. -/
theorem result_eq (c : Dev nD) :
    Pipeline.afterTail₀ cfgs (dats m) 0 (V0 m) [hostOps1, hostOps1_1, hostOps1_2] c main_v35 = result m c := by
  unfold Pipeline.afterTail₀ result
  rw [Cert.KernelIdeal.KTail.tail_after]
  have h2 : Pipeline.withArrays (cfgs 0).spec c (V0 m c) (fun w => (dats m 0 c).arrAt w (cfgs 0).N) (Proc.devRef .tc main_v11_0) = sums m c :=
    (Pipeline.withArrays_arr spec0 launch0.win.arr_inj c _ _ 2).trans (final2 m c)
  have h3 : Pipeline.withArrays (cfgs 0).spec c (V0 m c) (fun w => (dats m 0 c).arrAt w (cfgs 0).N) (Proc.devRef .tc main_v11_1) = counts m c :=
    (Pipeline.withArrays_arr spec0 launch0.win.arr_inj c _ _ 3).trans (final3 m c)
  have a3 : Pipeline.withArrays (cfgs 0).spec c (V0 m c) (fun w => (dats m 0 c).arrAt w (cfgs 0).N) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  have a5 : Pipeline.withArrays (cfgs 0).spec c (V0 m c) (fun w => (dats m 0 c).arrAt w (cfgs 0).N) (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  have a6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have a7 : Pipeline.withArrays (cfgs 0).spec c (V0 m c) (fun w => (dats m 0 c).arrAt w (cfgs 0).N) (Proc.devRef .tc main_arg7) = m ((c.tc : Thread nD τ).loc main_arg7) :=
    (Pipeline.withArrays_of_ne _ c (V0 m c) _ main_arg7 (by exact (by decide : ∀ w, Pipeline.arrRef spec0 w ≠ main_arg7))).trans (V_main_arg7 m c)
  have a8 : Pipeline.withArrays (cfgs 0).spec c (V0 m c) (fun w => (dats m 0 c).arrAt w (cfgs 0).N) (Proc.devRef .tc main_arg8) = m ((c.tc : Thread nD τ).loc main_arg8) :=
    (Pipeline.withArrays_of_ne _ c (V0 m c) _ main_arg8 (by exact (by decide : ∀ w, Pipeline.arrRef spec0 w ≠ main_arg8))).trans (V_main_arg8 m c)
  rw [h2, h3, a3, a5, a6, a7, a8]

/-- Every weakly fair execution ends with the result at `result` and the arguments unchanged. -/
theorem run : θ_run defs (onTc (τ := τ) (main (F := Ideal))) ⟨m, fun _ => 0, ρ⟩ fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KRun

end
-- ==== Proof.Spec.lean ====
/-
  The mathematics both programs compute, stated once over plain index types.

  Every edge `e` carries a segment id `seg e` (a 32-bit word read as a signed integer) and a row of 128 features.
  For a graph `g` among 512: the segment sum is the sum of the feature rows of the edges whose id is `g`, the segment
  count is the number of those edges, and the segment mean divides the sum by the count, or by one when no edge has the id.
  An id outside 0 … 511 belongs to no graph and its edge contributes nowhere.
-/
import Idealize.ShloMosaic.PureOps.Ideal
import Idealize.ShloMosaic.Lib.ValueIdx

noncomputable section

open scoped BigOperators

namespace Cert.Spec

open Idealize.ShloMosaic

/-- Column `f` of the sum of the feature rows of the edges whose segment id is `g`. -/
def segSum (seg : Fin 1600000 → BitVec 32) (ea : Fin 1600000 → Fin 128 → EReal) (g : Fin 512) (f : Fin 128) : EReal :=
  ∑ e : Fin 1600000, if (seg e).toInt = (g.val : ℤ) then ea e f else 0

/-- The number of edges whose segment id is `g`. -/
def segCount (seg : Fin 1600000 → BitVec 32) (g : Fin 512) : EReal :=
  ∑ e : Fin 1600000, if (seg e).toInt = (g.val : ℤ) then (1 : EReal) else 0

/-- The segment mean: the sum over the count, the count replaced by one where it is smaller. -/
def segMean (seg : Fin 1600000 → BitVec 32) (ea : Fin 1600000 → Fin 128 → EReal) (g : Fin 512) (f : Fin 128) : EReal :=
  Ideal.div (segSum seg ea g f) (max (segCount seg g) 1)

end Cert.Spec

end
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.LibScatterVec.lean ====
/-
  The host's accumulating scatter into a VECTOR, read over the extended reals.

  The scatter indices are a column of entry numbers, one per update; update `e` is added to operand entry `idx e`
  (read as a signed integer; a number outside the operand drops the update). Entry `n` of the result is entry `n` of
  the operand plus the sum of the updates `e` whose index is `n`.
-/
import Idealize.ShloMosaic.PureOps.Ideal.Laws
import Idealize.ShloMosaic.Lib.ValueIdx
import Idealize.ShloMosaic.Lib.Pipeline.Value

noncomputable section

open scoped BigOperators

namespace Cert.LibScatterVec

open Idealize.ShloMosaic Idealize.ShloMosaic.ValueIdx

section Coordinates

variable {N E : Nat}

/-- The dimension numbers of a scatter of scalars into a vector: the updates have no window axis, the operand's only
    axis is inserted and is the scattered one, and each scatter index is one scalar. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := hwf }

/-- The operand's only axis is inserted: it has no window coordinate. -/
theorem vecDims_window0 (hwf) (j : (⟨1, ![E]⟩ : Shape).Idx) : (vecDims (N := N) hwf).window j 0 = 0 := by
  rfl

/-- The window starts at the scatter index of the update, read as a signed integer. -/
theorem vecDims_start0 {w : Nat} (hwf) (j : (⟨1, ![E]⟩ : Shape).Idx) (idx : IVec ⟨2, ![E, 1]⟩ w) :
    (vecDims (N := N) hwf).start j idx 0 = (idx (ix2 (j 0) 0)).toInt := by
  have hs : (vecDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update lands: update `j` lands on entry `n` of the operand exactly when its scatter index is `n`. -/
theorem resultIdx_iff {w : Nat} (hwf) (j : (⟨1, ![E]⟩ : Shape).Idx) (idx : IVec ⟨2, ![E, 1]⟩ w) (n : Fin N) :
    (vecDims (N := N) hwf).resultIdx? j idx = some (ix1 n) ↔ (idx (ix2 (j 0) 0)).toInt = (n.val : ℤ) := by
  have s0 := vecDims_start0 (N := N) hwf j idx
  have w0 := vecDims_window0 (N := N) hwf j
  have hn := n.isLt
  unfold ScatterDims.resultIdx?
  split
  next h =>
    rw [Option.some.injEq]
    constructor
    · intro hf
      have e0 : ((vecDims (N := N) hwf).start j idx 0 + ((vecDims (N := N) hwf).window j 0 : ℕ)).toNat = n.val :=
        congrArg Fin.val (congrFun hf 0)
      have h0 : 0 ≤ (vecDims (N := N) hwf).start j idx 0 + ((vecDims (N := N) hwf).window j 0 : ℕ) ∧
          (vecDims (N := N) hwf).start j idx 0 + ((vecDims (N := N) hwf).window j 0 : ℕ) < (N : ℤ) := h 0
      rw [s0, w0] at e0 h0
      omega
    · intro en
      funext a; apply Fin.ext
      match a with
      | ⟨0, _⟩ =>
        show ((vecDims (N := N) hwf).start j idx 0 + ((vecDims (N := N) hwf).window j 0 : ℕ)).toNat = n.val
        rw [s0, w0, en]; omega
  next h =>
    constructor
    · intro hf; exact absurd hf (by simp)
    · intro en
      exfalso; apply h
      intro a
      match a with
      | ⟨0, _⟩ =>
        show 0 ≤ (vecDims (N := N) hwf).start j idx 0 + ((vecDims (N := N) hwf).window j 0 : ℕ) ∧
          (vecDims (N := N) hwf).start j idx 0 + ((vecDims (N := N) hwf).window j 0 : ℕ) < (N : ℤ)
        rw [s0, w0, en]; omega

/-- The rank-1 index set over `E` entries is `Fin E`. -/
def idxEquiv1 : Fin E ≃ (⟨1, ![E]⟩ : Shape).Idx where
  toFun := ix1
  invFun := fun j => j 0
  left_inv := fun _ => rfl
  right_inv := fun j => (eq_ix1 j).symm

/-- The vector scatter at the concrete dimension numbers, read at entry `n`. -/
theorem scatterAdd_vecDims_apply {w : Nat} (hwf) (x : FVec Ideal ⟨1, ![N]⟩ .f32) (idx : IVec ⟨2, ![E, 1]⟩ w)
    (upd : FVec Ideal ⟨1, ![E]⟩ .f32) (n : Fin N) :
    Host.scatterAdd (vecDims (N := N) hwf) x idx upd (ix1 n)
      = x (ix1 n) + ∑ e : Fin E, if (idx (ix2 e 0)).toInt = (n.val : ℤ) then upd (ix1 e) else 0 := by
  show x (ix1 n) + ∑ j ∈ Finset.univ.filter (fun j => (vecDims (N := N) hwf).resultIdx? j idx = some (ix1 n)), upd j = _
  refine congrArg (fun t => x (ix1 n) + t) ?_
  rw [Finset.sum_filter, ← Equiv.sum_comp (idxEquiv1 (E := E))]
  refine Finset.sum_congr rfl fun e _ => ?_
  exact if_congr (resultIdx_iff hwf (ix1 e) idx n) rfl rfl

end Coordinates

/-- The vector scatter read at an entry, for any dimension numbers whose four lists are those of a scatter of scalars into a
    vector: entry `n` of the result is the operand's entry plus the sum, over the updates `e` whose scatter index (read as a
    signed integer) is `n`, of update `e`. An update whose index is no entry of the operand contributes to no entry. -/
theorem scatterAdd_vec_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (n : Fin N) :
    Host.scatterAdd d x idx upd (ix1 n)
      = x (ix1 n) + ∑ e : Fin E, if (idx (ix2 e 0)).toInt = (n.val : ℤ) then upd (ix1 e) else 0 := by
  cases d with
  | mk uw iw sd iv wf =>
    dsimp only at h1 h2 h3 h4
    subst h1 h2 h3 h4
    exact scatterAdd_vecDims_apply wf x idx upd n

end Cert.LibScatterVec

end
-- ==== Proof.RefMean.lean ====
/-
  The reference's mean, read at an entry: the reference scatters the edge rows and a column of ones by the gathered
  segment ids, takes the larger of the count and one, and divides. Entry (g, f) of the quotient is the segment mean of
  the gathered ids and the edge rows.
-/
import proofs.«404079_j18159121728221_2_alg».proof.Proof.Gen.ReferenceIdeal.Read
import proofs.«404079_j18159121728221_2_alg».proof.Proof.Spec
import proofs.«404079_j18159121728221_2_alg».proof.Proof.LibScatterRows
import proofs.«404079_j18159121728221_2_alg».proof.Proof.LibScatterVec

noncomputable section

open scoped BigOperators

namespace Cert.ReferenceIdeal.RefMean

open Cert.ReferenceIdeal Cert.ReferenceIdeal.Gen Idealize.ShloMosaic Idealize.ShloMosaic.ValueIdx

/-- The pattern of 1.0 is the real number one. -/
theorem ofBits_one : Ideal.ofBits .f32 0x3F800000#32 = (1 : EReal) := by
  simp [Ideal.ofBits, Ideal.ieee, -EReal.coe_mul]
  norm_num

/-- Entry (g, f) of the reference's quotient is the segment mean. -/
theorem mean_apply (x1 : (⟨S2x1600000, .i32⟩ : BufTy).Contents (Elt Ideal)) (x2 : (⟨S1600000x128, .f32⟩ : BufTy).Contents (Elt Ideal))
    (x4 : (⟨S50000, .i32⟩ : BufTy).Contents (Elt Ideal)) (g : Fin 512) (f : Fin 128) :
    Read.val_main_v20 (F := Ideal) x1 x2 x4 (ix2 g f)
      = Cert.Spec.segMean (fun e => Read.val_main_v8 (F := Ideal) x1 x4 (ix1 e)) (fun e f => x2 (ix2 e f)) g f := by
  -- the gathered id of edge `e`, read off the index column at (e, 0)
  have hcol10 : ∀ e : Fin 1600000, Read.idx_main_v10 (ix2 e 0) = ix1 e := fun e => by
    funext a; apply Fin.ext
    match a with
    | ⟨0, _⟩ => rfl
  have hcol14 : ∀ e : Fin 1600000, Read.idx_main_v14 (ix2 e 0) = ix1 e := fun e => by
    funext a; apply Fin.ext
    match a with
    | ⟨0, _⟩ => rfl
  -- the numerator: the row scatter into zeros is the segment sum
  have hnum : Read.val_main_v11 (F := Ideal) x1 x2 x4 (ix2 g f)
      = Cert.Spec.segSum (fun e => Read.val_main_v8 (F := Ideal) x1 x4 (ix1 e)) (fun e f => x2 (ix2 e f)) g f := by
    unfold Read.val_main_v11
    rw [Cert.LibScatterRows.scatterAdd_rows_apply _ rfl rfl rfl rfl]
    rw [Read.val_main_v9_apply, Read.val_main_cst_apply, Ideal.ofBits_def, Ideal.ofBits_zero_f32, zero_add]
    unfold Cert.Spec.segSum
    refine Finset.sum_congr rfl fun e _ => ?_
    rw [Read.val_main_v10_apply, hcol10 e]
  -- the denominator: the scatter of ones into zeros is the segment count, then the larger of it and one
  have hden : Read.val_main_v19 (F := Ideal) x1 x4 (ix2 g f)
      = max (Cert.Spec.segCount (fun e => Read.val_main_v8 (F := Ideal) x1 x4 (ix1 e)) g) 1 := by
    have hi : Read.idx_main_v18 (Read.idx_main_v19 (ix2 g f)) = ix1 g := by
      funext a; apply Fin.ext
      match a with
      | ⟨0, _⟩ => rfl
    rw [Read.val_main_v19_apply, Read.val_main_v18_apply, hi, Read.val_main_v17_apply, Ideal.maximumf_def,
      Read.val_main_v16_apply, Read.val_main_cst_3_apply, Ideal.ofBits_def, ofBits_one]
    refine congrArg (fun t => max t (1 : EReal)) ?_
    unfold Read.val_main_v15
    rw [Cert.LibScatterVec.scatterAdd_vec_apply _ rfl rfl rfl rfl]
    rw [Read.val_main_v13_apply, Read.val_main_cst_2_apply, Ideal.ofBits_def, Ideal.ofBits_zero_f32, zero_add]
    unfold Cert.Spec.segCount
    refine Finset.sum_congr rfl fun e _ => ?_
    rw [Read.val_main_v14_apply, hcol14 e, Read.val_main_v12_apply, Read.val_main_cst_1_apply, Ideal.ofBits_def,
      ofBits_one]
  rw [Read.val_main_v20_apply, Ideal.hostDivf_def, hnum, hden]
  rfl

end Cert.ReferenceIdeal.RefMean

end
-- ==== Proof.KMean.lean ====
/-
  The kernel's mean is the segment mean.

  Entry (core, g, f) of the per-core sums is the sum, over the core's 100 tiles of 8000 edges, of feature `f` of the edges
  whose segment id is `g`; the two cores' entries added are that sum over all 1600000 edges, since the tiles of the two
  cores are exactly the edges, each once. The counts likewise. Dividing by the larger of the count and one gives the
  segment mean of the gathered ids and the edge rows.
-/
import proofs.«404079_j18159121728221_2_alg».proof.Proof.KFinal
import proofs.«404079_j18159121728221_2_alg».proof.Proof.KTail
import proofs.«404079_j18159121728221_2_alg».proof.Proof.KArr
import proofs.«404079_j18159121728221_2_alg».proof.Proof.Spec
import proofs.«404079_j18159121728221_2_alg».proof.Proof.TileSum
import proofs.«404079_j18159121728221_2_alg».proof.Proof.RefMean
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

open scoped BigOperators

namespace Cert.KernelIdeal.KMean

open Cert.KernelIdeal Cert.KernelIdeal.Gen Idealize.ShloMosaic.ValueIdx Cert.KernelIdeal.KInv Cert.KernelIdeal.KArr Cert.KernelIdeal.KFinal
open Cert.TileSum (tileIdx)

variable (m : (ℓ : Loc nD τ sig) → Buf (Elt Ideal) ℓ)

/-- A core's entry of the sums, over its edges by number. -/
theorem sums_apply (c : Dev nD) (cc : Fin 2) (g : Fin 512) (f : Fin 128) :
    sums m c (ix3 cc g f)
      = ∑ i : Fin 100, ∑ e : Fin 8000, if (segOf m c (tileIdx cc i e)).toInt = (g.val : ℤ) then eaOf m c (tileIdx cc i e) f else 0 := by
  unfold sums
  show ∑ j ∈ Finset.range 100, tileSum m c (100 * cc.val + j) g f = _
  rw [Finset.sum_range]
  exact Finset.sum_congr rfl fun i _ => tileSum_edges m c cc i g f

/-- A core's entry of the counts, over its edges by number. -/
theorem counts_apply (c : Dev nD) (cc : Fin 2) (g : Fin 512) :
    counts m c (ix3 cc g 0)
      = ∑ i : Fin 100, ∑ e : Fin 8000, if (segOf m c (tileIdx cc i e)).toInt = (g.val : ℤ) then (1 : EReal) else 0 := by
  unfold counts
  show ∑ j ∈ Finset.range 100, tileCnt m c (100 * cc.val + j) g = _
  rw [Finset.sum_range]
  exact Finset.sum_congr rfl fun i _ => tileCnt_edges m c cc i g

/-- The two cores' sums added are the segment sum. -/
theorem sums_add (c : Dev nD) (g : Fin 512) (f : Fin 128) :
    sums m c (ix3 0 g f) + sums m c (ix3 1 g f) = Cert.Spec.segSum (segOf m c) (eaOf m c) g f := by
  rw [sums_apply, sums_apply]
  unfold Cert.Spec.segSum
  rw [← Cert.TileSum.sum_tiles, Fin.sum_univ_two]

/-- The two cores' counts added are the segment count. -/
theorem counts_add (c : Dev nD) (g : Fin 512) :
    counts m c (ix3 0 g 0) + counts m c (ix3 1 g 0) = Cert.Spec.segCount (segOf m c) g := by
  rw [counts_apply, counts_apply]
  unfold Cert.Spec.segCount
  rw [← Cert.TileSum.sum_tiles, Fin.sum_univ_two]

/-- The host's quotient, entry by entry over the extended reals. -/
theorem hostDivf_apply {s : Shape} {φ : FTy} (a b : FVec Ideal s φ) (i : s.Idx) : Host.divf a b i = Ideal.div (a i) (b i) := rfl

/-- Entry (g, f) of the kernel's mean is the segment mean. -/
theorem mean_apply (c : Dev nD) (g : Fin 512) (f : Fin 128) :
    Cert.KernelIdeal.KTail.meanOf (F := Ideal) (sums m c) (counts m c) (ix2 g f)
      = Cert.Spec.segMean (segOf m c) (eaOf m c) g f := by
  unfold Cert.KernelIdeal.KTail.meanOf Cert.Spec.segMean
  rw [hostDivf_apply]
  rw [broadcastInDim_apply _ bcast_S512x1_S512x128_0_1 _ (ix2 g f) (ix2 g 0) (fun a => by
    match a with
    | ⟨0, _⟩ => show g.val = if (512 : Nat) = 1 then 0 else g.val; rw [if_neg (by decide)]
    | ⟨1, _⟩ => show (0 : ℕ) = if (1 : Nat) = 1 then 0 else f.val; rw [if_pos rfl])]
  rw [maximumf_apply, addf_apply, addf_apply, shapeCast_1ab_ab_apply, shapeCast_1ab_ab_apply, shapeCast_1ab_ab_apply,
    shapeCast_1ab_ab_apply]
  rw [extractStridedSlice_apply ![0, 0, 0] (sums m c) slices_S2x512x128_S1x512x128_0_0_0 (ix3 0 g f) (ix3 0 g f) (fun a => by
      match a with
      | ⟨0, _⟩ => rfl
      | ⟨1, _⟩ => exact (Nat.zero_add _).symm
      | ⟨2, _⟩ => exact (Nat.zero_add _).symm),
    extractStridedSlice_apply ![1, 0, 0] (sums m c) slices_S2x512x128_S1x512x128_1_0_0 (ix3 0 g f) (ix3 1 g f) (fun a => by
      match a with
      | ⟨0, _⟩ => rfl
      | ⟨1, _⟩ => exact (Nat.zero_add _).symm
      | ⟨2, _⟩ => exact (Nat.zero_add _).symm),
    extractStridedSlice_apply ![0, 0, 0] (counts m c) slices_S2x512x1_S1x512x1_0_0_0 (ix3 0 g 0) (ix3 0 g 0) (fun a => by
      match a with
      | ⟨0, _⟩ => rfl
      | ⟨1, _⟩ => exact (Nat.zero_add _).symm
      | ⟨2, _⟩ => rfl),
    extractStridedSlice_apply ![1, 0, 0] (counts m c) slices_S2x512x1_S1x512x1_1_0_0 (ix3 0 g 0) (ix3 1 g 0) (fun a => by
      match a with
      | ⟨0, _⟩ => rfl
      | ⟨1, _⟩ => exact (Nat.zero_add _).symm
      | ⟨2, _⟩ => rfl)]
  rw [sums_add, counts_add]
  rw [broadcastInDim_apply _ bcast_S_S512x1 _ (ix2 g 0) ix0 (fun a => a.elim0), constant_apply,
    Cert.ReferenceIdeal.RefMean.ofBits_one]

end Cert.KernelIdeal.KMean

end
-- ==== Proof.Bridge.lean ====
/-
  The two programs compute one function.

  Both gather the same segment id per edge from the same arguments. The reference's mean is the segment mean of those ids and
  the edge rows (a scatter of the rows and of ones, divided); the kernel's mean is the same segment mean (per-core sums
  of marked rows over tiles, added, divided). From the mean on, both apply the same perceptron to the same arguments. So
  the reference's result is the kernel's result.
-/
import proofs.«404079_j18159121728221_2_alg».proof.Defs
import proofs.«404079_j18159121728221_2_alg».proof.Proof.Gen.ReferenceIdeal.Run
import proofs.«404079_j18159121728221_2_alg».proof.Proof.Gen.ReferenceIdeal.Read
import proofs.«404079_j18159121728221_2_alg».proof.Proof.KRun
import proofs.«404079_j18159121728221_2_alg».proof.Proof.KMean
import proofs.«404079_j18159121728221_2_alg».proof.Proof.RefMean

noncomputable section

open Idealize.ShloMosaic Idealize.ShloMosaic.TcCoe Idealize.SL.Sem
open Idealize.ShloMosaic.Pipeline (Dat)

namespace Cert.Proof.Bridge

open Idealize.ShloMosaic.ValueIdx

/-- The two programs gather the same ids. -/
theorem segIds_eq (x1 : IVec Cert.KernelIdeal.S2x1600000 32) (x4 : IVec Cert.KernelIdeal.S50000 32) :
    Cert.ReferenceIdeal.Read.val_main_v8 (F := Ideal) x1 x4 = Cert.KernelIdeal.KArr.segIds x1 x4 := rfl

/-- From the mean on, the reference applies the kernel program's perceptron. -/
theorem ref_tail (x1 : IVec Cert.KernelIdeal.S2x1600000 32) (x2 : FVec Ideal Cert.KernelIdeal.S1600000x128 .f32)
    (x3 : FVec Ideal Cert.KernelIdeal.S512x64 .f32) (x4 : IVec Cert.KernelIdeal.S50000 32)
    (x5 : FVec Ideal Cert.KernelIdeal.S192x64 .f32) (x6 : FVec Ideal Cert.KernelIdeal.S64 .f32)
    (x7 : FVec Ideal Cert.KernelIdeal.S64x64 .f32) (x8 : FVec Ideal Cert.KernelIdeal.S64 .f32) :
    Cert.ReferenceIdeal.Read.val_main_v30 (F := Ideal) x1 x2 x3 x4 x5 x6 x7 x8
      = Cert.KernelIdeal.KTail.tail (F := Ideal) (Cert.ReferenceIdeal.Read.val_main_v20 (F := Ideal) x1 x2 x4) x3 x5 x6 x7 x8 := rfl

/-- The reference's mean of the kernel program's arguments is the kernel's mean. -/
theorem mean_eq (m : (ℓ : Loc Cert.KernelIdeal.nD Cert.KernelIdeal.τ Cert.KernelIdeal.sig) → Buf (Elt Ideal) ℓ) (c : Dev Cert.KernelIdeal.nD) :
    Cert.ReferenceIdeal.Read.val_main_v20 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
      = Cert.KernelIdeal.KTail.meanOf (F := Ideal) (Cert.KernelIdeal.KFinal.sums m c) (Cert.KernelIdeal.KFinal.counts m c) := by
  funext i
  obtain ⟨g, f, rfl⟩ : ∃ (g : Fin 512) (f : Fin 128), i = ix2 g f := ⟨i 0, i 1, eq_ix2 i⟩
  rw [Cert.KernelIdeal.KMean.mean_apply]
  exact Cert.ReferenceIdeal.RefMean.mean_apply _ _ _ g f

/-- The reference's result of the kernel program's arguments is the kernel program's result. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v30 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.KRun.result m c := by
  rw [ref_tail, mean_eq m c]
  rfl

end Cert.Proof.Bridge

end
-- ==== Proof.lean ====
/-
  The certificate: the Pallas segment-mean kernel against its jnp reference, over the extended reals.

  Both programs gather one graph id per edge, form for each of 512 graphs the mean of the feature rows of its edges (the sum
  over the count, the count replaced by one for a graph without edges), set the global features beside the mean and apply a
  two-layer perceptron. The reference takes the sums and counts by an accumulating scatter over all 1600000 edges; the
  kernel takes them as matrix products of 0/1 marks with tiles of 8000 edge rows, accumulated over 100 tiles on each of two
  cores, and adds the two cores' parts. A sum over the edges does not depend on how the edges are cut into tiles, a mark
  times a value is the value or zero, and an edge whose id is no graph contributes nowhere on either side; from the mean on
  the two programs are the same lines. The three frames are the generated ones (the reference's from its run); the one
  rewrite of the idealization, a narrowing followed by its widening removed, is the rule's own statement.
-/
import proofs.«404079_j18159121728221_2_alg».proof.Defs
import proofs.«404079_j18159121728221_2_alg».proof.Proof.Gen.Kernel
import proofs.«404079_j18159121728221_2_alg».proof.Proof.Gen.Kernel.Skeleton
import proofs.«404079_j18159121728221_2_alg».proof.Proof.Gen.Kernel.Launch
import proofs.«404079_j18159121728221_2_alg».proof.Proof.Gen.Kernel.Points
import proofs.«404079_j18159121728221_2_alg».proof.Proof.Gen.Kernel.Frame
import proofs.«404079_j18159121728221_2_alg».proof.Proof.Gen.KernelIdeal
import proofs.«404079_j18159121728221_2_alg».proof.Proof.Gen.KernelIdeal.Skeleton
import proofs.«404079_j18159121728221_2_alg».proof.Proof.Gen.KernelIdeal.Launch
import proofs.«404079_j18159121728221_2_alg».proof.Proof.Gen.KernelIdeal.Points
import proofs.«404079_j18159121728221_2_alg».proof.Proof.Gen.KernelIdeal.Frame
import proofs.«404079_j18159121728221_2_alg».proof.Proof.Gen.ReferenceIdeal
import proofs.«404079_j18159121728221_2_alg».proof.Proof.Gen.Pre_finite_inputs
import proofs.«404079_j18159121728221_2_alg».proof.Proof.Gen.ReferenceIdeal.Run
import proofs.«404079_j18159121728221_2_alg».proof.Proof.Gen.ReferenceIdeal.Read
import proofs.«404079_j18159121728221_2_alg».proof.Proof.KRun
import proofs.«404079_j18159121728221_2_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: a widening of a narrowing is the identity over the extended reals. -/
theorem preserves : Cert.preserves_Kernel_KernelIdeal :=
  IdealRules.truncf_extf.statement _ .f32 .bf16

/-- From memories agreeing on the arguments both programs end with the kernel program's result. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨-, a1, a2, a3, a4, a5, a6, a7, a8⟩ := hagree c
  rw [a1, a2, a3, a4, a5, a6, a7, a8]
  exact (Cert.ReferenceIdeal.Read.val_main_v30_eq _ _ _ _ _ _ _ _).trans (Cert.Proof.Bridge.result_eq m c)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
